-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : IVec S2x1000000 32) (main_arg3 : FVec F S256x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1007616x128 : Shape := ⟨2, ![1007616, 128]⟩
abbrev S128x128 : Shape := ⟨2, ![128, 128]⟩
abbrev S1007616x1 : Shape := ⟨2, ![1007616, 1]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 45
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S100000x128, .bf16⟩
  | .hbm, ⟨12, _⟩ => ⟨S50000x128, .bf16⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .bf16⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .bf16⟩
  | .hbm, ⟨31, _⟩ => ⟨S_, .i32⟩
  | .hbm, ⟨32, _⟩ => ⟨S_, .bf16⟩
  | .hbm, ⟨33, _⟩ => ⟨S1007616x128, .bf16⟩
  | .hbm, ⟨34, _⟩ => ⟨S_, .i32⟩
  | .hbm, ⟨35, _⟩ => ⟨S_, .bf16⟩
  | .hbm, ⟨36, _⟩ => ⟨S1007616x128, .bf16⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S128x1, .bf16⟩
  | .hbm, ⟨42, _⟩ => ⟨S1007616x1, .f32⟩
  | .hbm, ⟨43, _⟩ => ⟨S1000000x1, .f32⟩
  | .hbm, ⟨44, _⟩ => ⟨S1000000, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128x1, .bf16⟩
  | .local _ .vmem, ⟨8, _⟩ => ⟨S1, .f32⟩
  | .local _ .vmem, ⟨9, _⟩ => ⟨S8192x1, .f32⟩
  | .local _ .vmem, ⟨10, _⟩ => ⟨S8192x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call0_v0 : Ref sig .tc := ⟨.hbm, 32, rfl⟩
abbrev main_v20 : Ref sig .tc := ⟨.hbm, 33, rfl⟩
abbrev main_c_4 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S1000000x128_S1007616x128_076160_000 : S1000000x128.Pads (![0, 0] : Fin 2 → Nat) ![7616, 0] ![0, 0] S1007616x128
  h_S_ : 0 < S_.numel
  slices_S256x128_S128x128_0_0 : S256x128.Slices ![0, 0] S128x128
  slices_S256x128_S128x128_128_0 : S256x128.Slices ![128, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  inpos_S1_p0 : ∀ a, (![0] : Fin 1 → Nat) a < S1.size a
  inb_S8192x1_S8192x1_0_0 : ∀ a, (![0, 0] : Fin 2 → Nat) a + S8192x1.size a ≤ S8192x1.size a
  h_S8192x1 : 0 < S8192x1.numel
  slices_S1007616x1_S1000000x1_0_0 : S1007616x1.Slices ![0, 0] S1000000x1
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .bf16 = 32 ∨ (Rect.block (s := S1007616x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .bf16 = 32 ∨ (Rect.block (s := S1007616x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S1007616x1.size a
  hwx0_7 : ∀ i : grid0.Coords, EltTy.bits .f32 = 32 ∨ (Rect.block (s := S1007616x1) S8192x1.size (cc0_transform_7 i) (hinb0_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v20) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x1000000 : Shape := ⟨2, ![2, 1000000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x128 : Shape := ⟨2, ![1, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S1000000x128, .f32⟩
  | .hbm, ⟨31, _⟩ => ⟨S1x128, .f32⟩
  | .hbm, ⟨32, _⟩ => ⟨S1000000x128, .f32⟩
  | .hbm, ⟨33, _⟩ => ⟨S1000000x128, .f32⟩
  | .hbm, ⟨34, _⟩ => ⟨S_, .f32⟩
  | .hbm, ⟨35, _⟩ => ⟨S1000000x128, .f32⟩
  | .hbm, ⟨36, _⟩ => ⟨S1000000x128, .f32⟩
  | .hbm, ⟨37, _⟩ => ⟨S1000000x1, .f32⟩
  | .hbm, ⟨38, _⟩ => ⟨S1x1, .f32⟩
  | .hbm, ⟨39, _⟩ => ⟨S1000000x1, .f32⟩
  | .hbm, ⟨40, _⟩ => ⟨S1000000x1, .f32⟩
  | .hbm, ⟨41, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeScore.lean ====
/-
  The score of one edge of a bipartite graph, from the embedding rows of its two end points.

  An edge joins a user and a recipe; `u` and `v` are their embedding rows (128 numbers each). The score is a
  two-layer perceptron of the two rows laid side by side: a dense layer from 256 to 128 numbers with a bias and
  a rectifier, then a dense layer from 128 numbers to one with a bias,

      score u v = (∑ j, max ((∑ k, u k · W₁ k j) + (∑ k, v k · W₁ (128 + k) j) + b₁ j) 0 · W₂ j) + b₂ .

  The first layer's weights are one matrix of 256 rows: rows 0 … 127 meet the user's row, rows 128 … 255 the
  recipe's. Written over the two rows laid side by side, `z = (u, v)`, the first layer is ONE sum over 256 terms,
  and the two forms agree because a finite sum over 256 terms is the sum of its first 128 and of its last 128
  terms. That holds in every commutative monoid, so on the extended reals it asks nothing of the summands: no
  finiteness is used anywhere in this certificate.
-/
import Idealize.ShloMosaic.PureOps.Ideal
import Idealize.ShloMosaic.Lib.ValueIdx
import Mathlib.Algebra.BigOperators.Fin

noncomputable section

namespace Cert.EdgeScore

open Idealize.ShloMosaic Idealize.ShloMosaic.ValueIdx

/-- Row `k` of the upper half of the stacked weight matrix: the rows that meet the user's embedding. -/
abbrev lo (k : Fin 128) : Fin 256 := ⟨k.val, by omega⟩
/-- Row `128 + k`, in the lower half: the rows that meet the recipe's embedding. -/
abbrev hi (k : Fin 128) : Fin 256 := ⟨128 + k.val, by omega⟩

/-- A sum of 256 terms is the sum of its first 128 terms plus the sum of its last 128 terms. Only that addition is
    commutative and associative is used, so the summands may be any extended reals, infinite ones included. -/
theorem sum_halves {M : Type} [AddCommMonoid M] (f : Fin 256 → M) :
    ∑ k : Fin 256, f k = (∑ k : Fin 128, f (lo k)) + ∑ k : Fin 128, f (hi k) :=
  Fin.sum_univ_add (a := 128) (b := 128) f

/-- The rectifier's threshold: the word of `0.0`, kept as a word; both programs carry the same one. -/
abbrev zeroWord : EReal := Ideal.ofBits .f32 0x00000000#32

/-- One edge's score with the two halves of the first layer's matrix given apart: `A` meets the user's row `u`,
    `B` the recipe's row `v`; then the bias `b₁`, the rectifier, the column `W₂` and the bias `b₂`. -/
def scoreOfHalves (u v : Fin 128 → EReal) (A B : Fin 128 → Fin 128 → EReal) (b₁ : Fin 128 → EReal) (W₂ : Fin 128 → EReal)
    (b₂ : EReal) : EReal :=
  (∑ j : Fin 128, max (((∑ k : Fin 128, u k * A k j) + ∑ k : Fin 128, v k * B k j) + b₁ j) zeroWord * W₂ j) + b₂

/-- One edge's score from the whole first-layer matrix `W₁` of 256 rows: its upper rows against `u`, its lower rows
    against `v`. -/
def score (u v : Fin 128 → EReal) (W₁ : Fin 256 → Fin 128 → EReal) (b₁ : Fin 128 → EReal) (W₂ : Fin 128 → EReal)
    (b₂ : EReal) : EReal :=
  scoreOfHalves u v (fun k j => W₁ (lo k) j) (fun k j => W₁ (hi k) j) b₁ W₂ b₂

/-- The same score with the two rows laid side by side as one vector `z` of 256 numbers and the first layer ONE
    sum over its 256 terms: the form a concatenation followed by a single matrix product computes. -/
theorem score_of_stacked (z : Fin 256 → EReal) (W₁ : Fin 256 → Fin 128 → EReal) (b₁ : Fin 128 → EReal)
    (W₂ : Fin 128 → EReal) (b₂ : EReal) :
    (∑ j : Fin 128, max ((∑ k : Fin 256, z k * W₁ k j) + b₁ j) zeroWord * W₂ j) + b₂
      = score (fun k => z (lo k)) (fun k => z (hi k)) W₁ b₁ W₂ b₂ := by
  unfold score scoreOfHalves
  refine congrArg (· + b₂) (Finset.sum_congr rfl fun j _ => ?_)
  rw [sum_halves fun k => z k * W₁ k j]

/-- Edge `e`'s score: its user's row is row `e` of `U`, its recipe's row is row `e` of `V` (the two tables already
    read at the edge's end points). -/
def edgeScore (U V : (⟨2, ![1000000, 128]⟩ : Shape).Idx → EReal) (W₁ : (⟨2, ![256, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) (e : Fin 1000000) : EReal :=
  score (fun k => U (ix2 e k)) (fun k => V (ix2 e k)) (fun k j => W₁ (ix2 k j)) (fun j => b₁ (ix1 j))
    (fun j => W₂ (ix2 j (0 : Fin 1))) (b₂ (ix1 (0 : Fin 1)))

/-- All edges' scores, as an array of a million numbers. -/
def scores (U V : (⟨2, ![1000000, 128]⟩ : Shape).Idx → EReal) (W₁ : (⟨2, ![256, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) : (⟨1, ![1000000]⟩ : Shape).Idx → EReal :=
  fun i => edgeScore U V W₁ b₁ W₂ b₂ (⟨(i 0).val, (i 0).isLt⟩ : Fin 1000000)

/-- The array at edge `e` is that edge's score. -/
theorem scores_ix1 (U V : (⟨2, ![1000000, 128]⟩ : Shape).Idx → EReal) (W₁ : (⟨2, ![256, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) (e : Fin 1000000) :
    scores U V W₁ b₁ W₂ b₂ (ix1 e) = edgeScore U V W₁ b₁ W₂ b₂ e := rfl

end Cert.EdgeScore

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.BlockScore.lean ====
/-
  What the kernel body stores, row by row.

  At one grid point the body holds a block of 8192 users' rows `x0`, the matching block of 8192 recipes' rows
  `x1`, the two halves `x2`, `x3` of the first layer's matrix, its bias `x4`, the second layer's column `x5` and
  its bias `x6`, and stores one column of 8192 numbers. Row `r` of that column is the score of the edge whose
  rows are row `r` of the two blocks: two matrix products into zero accumulators are two sums over 128 terms,
  the bias is one row repeated down the block, the rectifier and the rounding to the narrower format act entry
  by entry (the rounding is the identity on the extended reals), and the last product is a sum over the 128
  hidden units.
-/
import proofs.«175898_j32323923870320_1_alg».proof.Proof.EdgeScore
import proofs.«175898_j32323923870320_1_alg».proof.Proof.LibPlainMatmul
import proofs.«175898_j32323923870320_1_alg».proof.Proof.Gen.KernelIdeal.Skeleton
import Idealize.ShloMosaic.Lib.Pipeline.Value

noncomputable section

namespace Cert.KernelIdeal.Block

open Cert.KernelIdeal Cert.KernelIdeal.Facts₀ Cert.KernelIdeal.Facts Idealize.ShloMosaic
  Idealize.ShloMosaic.ValueIdx Cert.EdgeScore

/-- A first-layer product (either half), into zeros, at row `r` and hidden unit `j`: a sum over the 128 columns. -/
theorem hidden_product_at {φ₁ φ₂ : FTy} (a : FVec Ideal S8192x128 φ₁) (b : FVec Ideal S128x128 φ₂) (r : Fin 8192) (j : Fin 128) :
    matmul dot_S8192x128_S128x128_S8192x128_1_0_0_1_n_n none a b (constant S8192x128 .f32 0x00000000#32) (ix2 r j)
      = ∑ k : Fin 128, a (ix2 r k) * b (ix2 k j) :=
  Cert.PlainMatmul.matmul_plain_zero_apply a b none r j

/-- The second-layer product, into zeros, at row `r`: a sum over the 128 hidden units. -/
theorem out_product_at {φ₁ φ₂ : FTy} (a : FVec Ideal S8192x128 φ₁) (b : FVec Ideal S128x1 φ₂) (r : Fin 8192) :
    matmul dot_S8192x128_S128x1_S8192x1_1_0_0_1_n_n none a b (constant S8192x1 .f32 0x00000000#32) (ix2 r (0 : Fin 1))
      = ∑ j : Fin 128, a (ix2 r j) * b (ix2 j (0 : Fin 1)) :=
  Cert.PlainMatmul.matmul_plain_zero_apply a b none r 0

/-- The bias, made a row and repeated down the block: at row `r`, column `j` it is the bias's entry `j`. -/
theorem bias_row_at (x4 : FVec Ideal S128 .f32) (r : Fin 8192) (j : Fin 128) :
    broadcastTo S8192x128 (shapeCast S1x128 x4 shapeCasts_S128_S1x128) broadcasts_S1x128_S8192x128 (ix2 r j) = x4 (ix1 j) := by
  rw [broadcastTo_apply _ broadcasts_S1x128_S8192x128 (ix2 r j) (ix2 (0 : Fin 1) j) (fun a => match a with
    | ⟨0, _⟩ => by show 0 = if (1 : ℕ) = 1 then 0 else _; rw [if_pos rfl]
    | ⟨1, _⟩ => by show j.val = if (128 : ℕ) = 1 then 0 else j.val; rw [if_neg (by decide)])]
  exact shapeCast_apply x4 shapeCasts_S128_S1x128 (ix2 (0 : Fin 1) j) (ix1 j)
    (by rw [Shape.rowMajor_val_one, Shape.rowMajor_val_two]; show j.val = 0 * 128 + j.val; omega)

/-- Row `r` of the stored column is the score of the edge whose end points' rows are row `r` of the two blocks. -/
theorem payload_at (x0 x1 : FVec Ideal S8192x128 .bf16) (x2 x3 : FVec Ideal S128x128 .bf16) (x4 : FVec Ideal S128 .f32)
    (x5 : FVec Ideal S128x1 .bf16) (x6 : FVec Ideal S1 .f32) (r : Fin 8192) :
    Gen.k0_pay1 (F := Ideal) x0 x1 x2 x3 x4 x5 x6 (ix2 r (0 : Fin 1))
      = scoreOfHalves (fun k => x0 (ix2 r k)) (fun k => x1 (ix2 r k)) (fun k j => x2 (ix2 k j)) (fun k j => x3 (ix2 k j))
          (fun j => x4 (ix1 j)) (fun j => x5 (ix2 j (0 : Fin 1))) (x6 (ix1 (0 : Fin 1))) := by
  unfold Gen.k0_pay1 scoreOfHalves
  dsimp only
  simp only [shapeCast_self]
  rw [addf_apply, out_product_at, broadcast_apply]
  refine congrArg₂ (· + ·) (Finset.sum_congr rfl fun j _ => ?_) ?_
  · rw [truncf_apply, maximumf_apply, addf_apply, addf_apply, hidden_product_at, hidden_product_at, bias_row_at,
      broadcast_apply]
    rfl
  · exact congrArg x6 (funext fun a => match a with | ⟨0, _⟩ => rfl)

end Cert.KernelIdeal.Block

end
-- ==== Proof.PaddedScores.lean ====
/-
  The scores of all rows of the padded tables.

  The kernel works on the two gathered tables lengthened to 1007616 = 123 · 8192 rows, with the first layer's
  matrix already cut into its upper and lower halves, and leaves a column of 1007616 scores. Row `p` of that
  column depends on row `p` of the two padded tables only; for `p` below the millionth, where the padded tables
  are the gathered tables, it is the edge's score. The rows from the millionth on score the padding and are
  never read.
-/
import proofs.«175898_j32323923870320_1_alg».proof.Proof.EdgeScore

noncomputable section

namespace Cert.EdgeScore

open Idealize.ShloMosaic Idealize.ShloMosaic.ValueIdx

/-- The score depends on its seven arguments entry by entry. -/
theorem scoreOfHalves_congr {u u' v v' : Fin 128 → EReal} {A A' B B' : Fin 128 → Fin 128 → EReal}
    {b₁ b₁' W₂ W₂' : Fin 128 → EReal} {b₂ b₂' : EReal}
    (hu : ∀ k, u k = u' k) (hv : ∀ k, v k = v' k) (hA : ∀ k j, A k j = A' k j) (hB : ∀ k j, B k j = B' k j)
    (hb₁ : ∀ j, b₁ j = b₁' j) (hW₂ : ∀ j, W₂ j = W₂' j) (hb₂ : b₂ = b₂') :
    scoreOfHalves u v A B b₁ W₂ b₂ = scoreOfHalves u' v' A' B' b₁' W₂' b₂' := by
  obtain rfl : u = u' := funext hu
  obtain rfl : v = v' := funext hv
  obtain rfl : A = A' := funext fun k => funext (hA k)
  obtain rfl : B = B' := funext fun k => funext (hB k)
  obtain rfl : b₁ = b₁' := funext hb₁
  obtain rfl : W₂ = W₂' := funext hW₂
  subst hb₂
  rfl

/-- The score of row `p` of the padded tables `Up`, `Vp`, from the two half-matrices `A`, `B`. -/
def rowScore (Up Vp : (⟨2, ![1007616, 128]⟩ : Shape).Idx → EReal) (A B : (⟨2, ![128, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) (p : Fin 1007616) : EReal :=
  scoreOfHalves (fun k => Up (ix2 p k)) (fun k => Vp (ix2 p k)) (fun k j => A (ix2 k j)) (fun k j => B (ix2 k j))
    (fun j => b₁ (ix1 j)) (fun j => W₂ (ix2 j (0 : Fin 1))) (b₂ (ix1 (0 : Fin 1)))

/-- The column of all 1007616 rows' scores. -/
def paddedScores (Up Vp : (⟨2, ![1007616, 128]⟩ : Shape).Idx → EReal) (A B : (⟨2, ![128, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) : (⟨2, ![1007616, 1]⟩ : Shape).Idx → EReal :=
  fun i => rowScore Up Vp A B b₁ W₂ b₂ (⟨(i 0).val, (i 0).isLt⟩ : Fin 1007616)

/-- The column at row `p` is that row's score. -/
theorem paddedScores_ix2 (Up Vp : (⟨2, ![1007616, 128]⟩ : Shape).Idx → EReal) (A B : (⟨2, ![128, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) (p : Fin 1007616) :
    paddedScores Up Vp A B b₁ W₂ b₂ (ix2 p (0 : Fin 1)) = rowScore Up Vp A B b₁ W₂ b₂ p := rfl

/-- A row below the millionth scores as its edge, when there the padded tables are the gathered tables, the two
    half-matrices are the upper and the lower 128 rows of `W₁`, and the biases and the second layer's column are
    the edge score's, entry by entry. -/
theorem rowScore_eq_edgeScore (Up Vp : (⟨2, ![1007616, 128]⟩ : Shape).Idx → EReal) (A B : (⟨2, ![128, 128]⟩ : Shape).Idx → EReal)
    (b₁' : (⟨1, ![128]⟩ : Shape).Idx → EReal) (W₂' : (⟨2, ![128, 1]⟩ : Shape).Idx → EReal) (b₂' : (⟨1, ![1]⟩ : Shape).Idx → EReal)
    (U V : (⟨2, ![1000000, 128]⟩ : Shape).Idx → EReal) (W₁ : (⟨2, ![256, 128]⟩ : Shape).Idx → EReal)
    (b₁ : (⟨1, ![128]⟩ : Shape).Idx → EReal) (W₂ : (⟨2, ![128, 1]⟩ : Shape).Idx → EReal)
    (b₂ : (⟨1, ![1]⟩ : Shape).Idx → EReal) (e : Fin 1000000)
    (hU : ∀ k : Fin 128, Up (ix2 (⟨e.val, by omega⟩ : Fin 1007616) k) = U (ix2 e k))
    (hV : ∀ k : Fin 128, Vp (ix2 (⟨e.val, by omega⟩ : Fin 1007616) k) = V (ix2 e k))
    (hA : ∀ k j : Fin 128, A (ix2 k j) = W₁ (ix2 (lo k) j)) (hB : ∀ k j : Fin 128, B (ix2 k j) = W₁ (ix2 (hi k) j))
    (hb₁ : ∀ j : Fin 128, b₁' (ix1 j) = b₁ (ix1 j)) (hW₂ : ∀ j : Fin 128, W₂' (ix2 j (0 : Fin 1)) = W₂ (ix2 j (0 : Fin 1)))
    (hb₂ : b₂' (ix1 (0 : Fin 1)) = b₂ (ix1 (0 : Fin 1))) :
    rowScore Up Vp A B b₁' W₂' b₂' (⟨e.val, by omega⟩ : Fin 1007616) = edgeScore U V W₁ b₁ W₂ b₂ e := by
  unfold rowScore edgeScore score
  exact scoreOfHalves_congr hU hV hA hB hb₁ hW₂ hb₂

end Cert.EdgeScore

end
-- ==== Proof.RegionEntry.lean ====
/-
  What the kernel's one region finds in its windows' arrays.

  Before the region the program reads the two embedding tables at the edges' end points — the edge list's first
  row names the users, its second the recipes, a negative entry counted from the table's end —, rounds to the
  narrower format (the identity on the extended reals), and appends 7616 rows of padding to each of the two
  gathered tables so that 123 blocks of 8192 rows cover them: windows 0 and 1. Windows 2 and 3 are the upper
  and the lower 128 rows of the first layer's matrix, window 4 its bias, window 5 the second layer's column,
  window 6 its bias. Each is read here as a term of the argument arrays, and then at an index: a row below the
  millionth of a padded table is the gathered table's row, and row `k` of the lower half-matrix is row `128 + k`
  of the whole.
-/
import proofs.«175898_j32323923870320_1_alg».proof.Proof.EdgeScore
import proofs.«175898_j32323923870320_1_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

noncomputable section

namespace Cert.KernelIdeal.Entry

open Cert.KernelIdeal Cert.KernelIdeal.Facts₀ Cert.KernelIdeal.Facts Idealize.ShloMosaic Idealize.ShloMosaic.TcCoe
  Idealize.SL.Sem Idealize.ShloMosaic.StableHlo Idealize.ShloMosaic.ValueIdx Cert.EdgeScore

/-! ## The two gathered tables, as terms of the argument arrays -/

variable {F : FTy → Type} [FloatOps F]

/-- The users' ends of the edges: the edge list's first row, a negative entry moved up by the users' table's
    100000 rows, as a column of start indices. -/
def userIds (x2 : (⟨S2x1000000, .i32⟩ : BufTy).Contents (Elt F)) : (⟨S1000000x1, .i32⟩ : BufTy).Contents (Elt F) :=
  broadcastInDim S1000000x1 ![0] bcast_S1000000_S1000000x1_0
    (select
      (cmpi .slt (shapeCast S1000000 (extractStridedSlice S1x1000000 ![0, 0] x2 slices_S2x1000000_S1x1000000_0_0) shapeCasts_S1x1000000_S1000000)
        (broadcastInDim S1000000 ![] bcast_S_S1000000 (constantI S_ 32 0#32)))
      (addi (shapeCast S1000000 (extractStridedSlice S1x1000000 ![0, 0] x2 slices_S2x1000000_S1x1000000_0_0) shapeCasts_S1x1000000_S1000000)
        (broadcastInDim S1000000 ![] bcast_S_S1000000 (constantI S_ 32 100000#32)))
      (shapeCast S1000000 (extractStridedSlice S1x1000000 ![0, 0] x2 slices_S2x1000000_S1x1000000_0_0) shapeCasts_S1x1000000_S1000000))

/-- The recipes' ends: the edge list's second row, a negative entry moved up by the recipes' table's 50000 rows. -/
def recipeIds (x2 : (⟨S2x1000000, .i32⟩ : BufTy).Contents (Elt F)) : (⟨S1000000x1, .i32⟩ : BufTy).Contents (Elt F) :=
  broadcastInDim S1000000x1 ![0] bcast_S1000000_S1000000x1_0
    (select
      (cmpi .slt (shapeCast S1000000 (extractStridedSlice S1x1000000 ![1, 0] x2 slices_S2x1000000_S1x1000000_1_0) shapeCasts_S1x1000000_S1000000)
        (broadcastInDim S1000000 ![] bcast_S_S1000000 (constantI S_ 32 0#32)))
      (addi (shapeCast S1000000 (extractStridedSlice S1x1000000 ![1, 0] x2 slices_S2x1000000_S1x1000000_1_0) shapeCasts_S1x1000000_S1000000)
        (broadcastInDim S1000000 ![] bcast_S_S1000000 (constantI S_ 32 50000#32)))
      (shapeCast S1000000 (extractStridedSlice S1x1000000 ![1, 0] x2 slices_S2x1000000_S1x1000000_1_0) shapeCasts_S1x1000000_S1000000))

/-- The users' table read at the edges' users: one row of 128 numbers an edge. -/
def usersRows (x0 : (⟨S100000x128, .f32⟩ : BufTy).Contents (Elt F)) (x2 : (⟨S2x1000000, .i32⟩ : BufTy).Contents (Elt F)) :
    (⟨S1000000x128, .bf16⟩ : BufTy).Contents (Elt F) :=
  Host.gather gather_S100000x128_S1000000x1_S1000000x128_1_0_n_n_0_1_1128 (truncf (F := F) .bf16 x0 bitsLt_bf16_f32) (userIds x2)

/-- The recipes' table read at the edges' recipes. -/
def recipesRows (x1 : (⟨S50000x128, .f32⟩ : BufTy).Contents (Elt F)) (x2 : (⟨S2x1000000, .i32⟩ : BufTy).Contents (Elt F)) :
    (⟨S1000000x128, .bf16⟩ : BufTy).Contents (Elt F) :=
  Host.gather gather_S50000x128_S1000000x1_S1000000x128_1_0_n_n_0_1_1128 (truncf (F := F) .bf16 x1 bitsLt_bf16_f32) (recipeIds x2)

/-! ## Each window's array at the region's entry, at any reading of the floats -/

section AnyF
variable (m : (ℓ : Loc nD τ sig) → Buf (Elt F) ℓ)

set_option maxHeartbeats 2000000 in
/-- Window 0: the users' rows with 7616 padding rows appended. -/
theorem users_window (c : Dev nD) :
    (Gen.V m c main_v20 : S1007616x128.Idx → Elt F .bf16)
      = pad S1007616x128 ![0, 0] ![7616, 0] ![0, 0]
          (usersRows (m ((c : Thread nD τ).loc main_arg0)) (m ((c : Thread nD τ).loc main_arg2)))
          (sitofp (F := F) .bf16 (constantI S_ 32 0#32)) pads_S1000000x128_S1007616x128_076160_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

set_option maxHeartbeats 2000000 in
/-- Window 1: the recipes' rows with 7616 padding rows appended. -/
theorem recipes_window (c : Dev nD) :
    (Gen.V m c main_v21 : S1007616x128.Idx → Elt F .bf16)
      = pad S1007616x128 ![0, 0] ![7616, 0] ![0, 0]
          (recipesRows (m ((c : Thread nD τ).loc main_arg1)) (m ((c : Thread nD τ).loc main_arg2)))
          (sitofp (F := F) .bf16 (constantI S_ 32 0#32)) pads_S1000000x128_S1007616x128_076160_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Window 2: the upper 128 rows of the first layer's matrix. -/
theorem upper_weights (c : Dev nD) :
    (Gen.V m c main_v23 : S128x128.Idx → Elt F .bf16)
      = truncf (F := F) .bf16 (extractStridedSlice S128x128 ![0, 0] (m ((c : Thread nD τ).loc main_arg3)) slices_S256x128_S128x128_0_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Window 3: the lower 128 rows of the first layer's matrix. -/
theorem lower_weights (c : Dev nD) :
    (Gen.V m c main_v25 : S128x128.Idx → Elt F .bf16)
      = truncf (F := F) .bf16 (extractStridedSlice S128x128 ![128, 0] (m ((c : Thread nD τ).loc main_arg3)) slices_S256x128_S128x128_128_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Window 5: the second layer's column. -/
theorem out_weights (c : Dev nD) :
    (Gen.V m c main_v26 : S128x1.Idx → Elt F .bf16) = truncf (F := F) .bf16 (m ((c : Thread nD τ).loc main_arg5)) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  all_goals rfl

end AnyF

/-! ## The same, read at an index, on the extended reals -/

variable (m : (ℓ : Loc nD τ sig) → Buf (Elt Ideal) ℓ)

/-- Row `e` of the padded users' rows, for an edge `e` below the millionth, is the users' rows' row `e`. -/
theorem users_window_at (c : Dev nD) (e : Fin 1000000) (k : Fin 128) :
    (Gen.V m c main_v20 : S1007616x128.Idx → EReal) (ix2 (⟨e.val, by omega⟩ : Fin 1007616) k)
      = usersRows (F := Ideal) (m ((c : Thread nD τ).loc main_arg0)) (m ((c : Thread nD τ).loc main_arg2)) (ix2 e k) := by
  rw [users_window (F := Ideal)]
  exact pad_apply_of_inside _ _ _ _ _ pads_S1000000x128_S1007616x128_076160_000 h_S_ _ (ix2 e k) (fun a => match a with
    | ⟨0, _⟩ => by show e.val = 0 + e.val * (0 + 1); omega
    | ⟨1, _⟩ => by show k.val = 0 + k.val * (0 + 1); omega)

/-- Row `e` of the padded recipes' rows, for an edge `e` below the millionth, is the recipes' rows' row `e`. -/
theorem recipes_window_at (c : Dev nD) (e : Fin 1000000) (k : Fin 128) :
    (Gen.V m c main_v21 : S1007616x128.Idx → EReal) (ix2 (⟨e.val, by omega⟩ : Fin 1007616) k)
      = recipesRows (F := Ideal) (m ((c : Thread nD τ).loc main_arg1)) (m ((c : Thread nD τ).loc main_arg2)) (ix2 e k) := by
  rw [recipes_window (F := Ideal)]
  exact pad_apply_of_inside _ _ _ _ _ pads_S1000000x128_S1007616x128_076160_000 h_S_ _ (ix2 e k) (fun a => match a with
    | ⟨0, _⟩ => by show e.val = 0 + e.val * (0 + 1); omega
    | ⟨1, _⟩ => by show k.val = 0 + k.val * (0 + 1); omega)

/-- Entry `(k, j)` of the upper half-matrix is entry `(k, j)` of the whole matrix. -/
theorem upper_weights_at (c : Dev nD) (k j : Fin 128) :
    (Gen.V m c main_v23 : S128x128.Idx → EReal) (ix2 k j)
      = (m ((c : Thread nD τ).loc main_arg3) : S256x128.Idx → EReal) (ix2 (lo k) j) := by
  rw [upper_weights (F := Ideal), truncf_apply]
  exact extractStridedSlice_apply _ _ slices_S256x128_S128x128_0_0 (ix2 k j) (ix2 (lo k) j) (fun a => match a with
    | ⟨0, _⟩ => by show k.val = 0 + k.val; omega
    | ⟨1, _⟩ => by show j.val = 0 + j.val; omega)

/-- Entry `(k, j)` of the lower half-matrix is entry `(128 + k, j)` of the whole matrix. -/
theorem lower_weights_at (c : Dev nD) (k j : Fin 128) :
    (Gen.V m c main_v25 : S128x128.Idx → EReal) (ix2 k j)
      = (m ((c : Thread nD τ).loc main_arg3) : S256x128.Idx → EReal) (ix2 (hi k) j) := by
  rw [lower_weights (F := Ideal), truncf_apply]
  exact extractStridedSlice_apply _ _ slices_S256x128_S128x128_128_0 (ix2 k j) (ix2 (hi k) j) (fun a => match a with
    | ⟨0, _⟩ => by show 128 + k.val = 128 + k.val; rfl
    | ⟨1, _⟩ => by show j.val = 0 + j.val; omega)

/-- The second layer's column, entry by entry. -/
theorem out_weights_at (c : Dev nD) (j : Fin 128) :
    (Gen.V m c main_v26 : S128x1.Idx → EReal) (ix2 j (0 : Fin 1))
      = (m ((c : Thread nD τ).loc main_arg5) : S128x1.Idx → EReal) (ix2 j (0 : Fin 1)) := by
  rw [out_weights (F := Ideal), truncf_apply]

end Cert.KernelIdeal.Entry

end
-- ==== Proof.BlockRows.lean ====
/-
  Which rows of the arrays a grid point's blocks hold.

  The grid has 123 points. At point `t` windows 0 and 1 hold rows `8192·t … 8192·t + 8191` of the two padded
  tables, all 128 columns; window 7 is written back to the same rows of the output column; windows 2 to 6 hold
  their whole arrays at every point. Each block's entry is read here as an entry of its array.
-/
import proofs.«175898_j32323923870320_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.Rows

open Cert.KernelIdeal Idealize.ShloMosaic Idealize.ShloMosaic.TcCoe Idealize.SL.Sem Idealize.ShloMosaic.ValueIdx

variable (m : (ℓ : Loc nD τ sig) → Buf (Elt Ideal) ℓ)

/-- The printed index maps, decided once over the 123 points: the three row-blocked windows are at block row `t`,
    block column 0; the five whole-array windows are at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `r` of window 0's block at point `t` is row `8192·t + r` of the padded users' rows. -/
theorem users_block_at (c : Dev nD) (t : Fin cfg0.N) (r : Fin 8192) (k : Fin 128) (p : Fin 1007616)
    (hp : p.val = t.val * 8192 + r.val) :
    (Gen.iblk m c 0 t : S8192x128.Idx → EReal) (ix2 r k) = (Gen.V m c main_v20 : S1007616x128.Idx → EReal) (ix2 p k) := by
  obtain ⟨h0, h1, -⟩ := idx_facts t
  unfold Gen.iblk
  rw [View.read_apply]
  show Gen.V m c main_v20 _ = Gen.V m c main_v20 _
  congr 1
  funext a
  apply Fin.ext
  match a with
  | ⟨0, _⟩ => show win0_0.index t 0 * 8192 + 1 * r.val = p.val; rw [h0, hp]; omega
  | ⟨1, _⟩ => show win0_0.index t 1 * 128 + 1 * k.val = k.val; rw [h1]; omega

/-- Row `r` of window 1's block at point `t` is row `8192·t + r` of the padded recipes' rows. -/
theorem recipes_block_at (c : Dev nD) (t : Fin cfg0.N) (r : Fin 8192) (k : Fin 128) (p : Fin 1007616)
    (hp : p.val = t.val * 8192 + r.val) :
    (Gen.iblk m c 1 t : S8192x128.Idx → EReal) (ix2 r k) = (Gen.V m c main_v21 : S1007616x128.Idx → EReal) (ix2 p k) := by
  obtain ⟨-, -, h0, h1, -⟩ := idx_facts t
  unfold Gen.iblk
  rw [View.read_apply]
  show Gen.V m c main_v21 _ = Gen.V m c main_v21 _
  congr 1
  funext a
  apply Fin.ext
  match a with
  | ⟨0, _⟩ => show win0_1.index t 0 * 8192 + 1 * r.val = p.val; rw [h0, hp]; omega
  | ⟨1, _⟩ => show win0_1.index t 1 * 128 + 1 * k.val = k.val; rw [h1]; omega

/-- Window 2's block is the whole upper half-matrix at every point. -/
theorem upper_block_at (c : Dev nD) (t : Fin cfg0.N) (k j : Fin 128) :
    (Gen.iblk m c 2 t : S128x128.Idx → EReal) (ix2 k j) = (Gen.V m c main_v23 : S128x128.Idx → EReal) (ix2 k j) := by
  obtain ⟨-, -, -, -, h0, h1, -⟩ := idx_facts t
  unfold Gen.iblk
  rw [View.read_apply]
  show Gen.V m c main_v23 _ = Gen.V m c main_v23 _
  congr 1
  funext a
  apply Fin.ext
  match a with
  | ⟨0, _⟩ => show win0_2.index t 0 * 128 + 1 * k.val = k.val; rw [h0]; omega
  | ⟨1, _⟩ => show win0_2.index t 1 * 128 + 1 * j.val = j.val; rw [h1]; omega

/-- Window 3's block is the whole lower half-matrix at every point. -/
theorem lower_block_at (c : Dev nD) (t : Fin cfg0.N) (k j : Fin 128) :
    (Gen.iblk m c 3 t : S128x128.Idx → EReal) (ix2 k j) = (Gen.V m c main_v25 : S128x128.Idx → EReal) (ix2 k j) := by
  obtain ⟨-, -, -, -, -, -, h0, h1, -⟩ := idx_facts t
  unfold Gen.iblk
  rw [View.read_apply]
  show Gen.V m c main_v25 _ = Gen.V m c main_v25 _
  congr 1
  funext a
  apply Fin.ext
  match a with
  | ⟨0, _⟩ => show win0_3.index t 0 * 128 + 1 * k.val = k.val; rw [h0]; omega
  | ⟨1, _⟩ => show win0_3.index t 1 * 128 + 1 * j.val = j.val; rw [h1]; omega

/-- Window 4's block is the whole first-layer bias at every point. -/
theorem bias_block_at (c : Dev nD) (t : Fin cfg0.N) (j : Fin 128) :
    (Gen.iblk m c 4 t : S128.Idx → EReal) (ix1 j) = (Gen.V m c main_arg4 : S128.Idx → EReal) (ix1 j) := by
  obtain ⟨-, -, -, -, -, -, -, -, h0, -⟩ := idx_facts t
  unfold Gen.iblk
  rw [View.read_apply]
  show Gen.V m c main_arg4 _ = Gen.V m c main_arg4 _
  congr 1
  funext a
  apply Fin.ext
  match a with
  | ⟨0, _⟩ => show win0_4.index t 0 * 128 + 1 * j.val = j.val; rw [h0]; omega

/-- Window 5's block is the whole second-layer column at every point. -/
theorem out_block_at (c : Dev nD) (t : Fin cfg0.N) (j : Fin 128) :
    (Gen.iblk m c 5 t : S128x1.Idx → EReal) (ix2 j (0 : Fin 1)) = (Gen.V m c main_v26 : S128x1.Idx → EReal) (ix2 j (0 : Fin 1)) := by
  obtain ⟨-, -, -, -, -, -, -, -, -, h0, h1, -⟩ := idx_facts t
  unfold Gen.iblk
  rw [View.read_apply]
  show Gen.V m c main_v26 _ = Gen.V m c main_v26 _
  congr 1
  funext a
  apply Fin.ext
  match a with
  | ⟨0, _⟩ => show win0_5.index t 0 * 128 + 1 * j.val = j.val; rw [h0]; omega
  | ⟨1, _⟩ => show win0_5.index t 1 * 1 + 1 * 0 = 0; rw [h1]

/-- Window 6's block is the second-layer bias at every point. -/
theorem out_bias_block_at (c : Dev nD) (t : Fin cfg0.N) :
    (Gen.iblk m c 6 t : S1.Idx → EReal) (ix1 (0 : Fin 1)) = (Gen.V m c main_arg6 : S1.Idx → EReal) (ix1 (0 : Fin 1)) := by
  obtain ⟨-, -, -, -, -, -, -, -, -, -, -, h0, -⟩ := idx_facts t
  unfold Gen.iblk
  rw [View.read_apply]
  show Gen.V m c main_arg6 _ = Gen.V m c main_arg6 _
  congr 1
  funext a
  apply Fin.ext
  match a with
  | ⟨0, _⟩ => show win0_6.index t 0 * 1 + 1 * 0 = 0; rw [h0]

end Cert.KernelIdeal.Rows

end
-- ==== Proof.KernelScore.lean ====
/-
  The kernel computes the edge scores.

  Grid point `t` writes back rows `8192·t … 8192·t + 8191` of the output column, and row `r` of what it writes is
  the score of row `8192·t + r` of the two padded tables (the body's stored value, read through the windows' blocks).
  The 123 points' blocks cover the 1007616 rows — row `p` lies in the block of point `p / 8192` —, so after the region
  the output array is the column of all rows' scores. The host operations after the region keep its first million
  rows and drop the unit axis; a row below the millionth is an edge, the padded tables are there the gathered
  tables, the two half-matrices are the halves of the first layer's matrix, and the narrower format is the
  identity on the extended reals: the result is the array of the edges' scores.
-/
import proofs.«175898_j32323923870320_1_alg».proof.Proof.BlockScore
import proofs.«175898_j32323923870320_1_alg».proof.Proof.PaddedScores
import proofs.«175898_j32323923870320_1_alg».proof.Proof.RegionEntry
import proofs.«175898_j32323923870320_1_alg».proof.Proof.BlockRows
import Idealize.ShloMosaic.Lib.StableHlo.Run

noncomputable section

namespace Cert.KernelIdeal.Score

open Cert.KernelIdeal Cert.KernelIdeal.Facts₀ Cert.KernelIdeal.Facts Idealize.ShloMosaic Idealize.ShloMosaic.TcCoe
  Idealize.SL.Sem Idealize.ShloMosaic.StableHlo Idealize.ShloMosaic.ValueIdx Cert.EdgeScore
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The output column -/

/-- The column of all 1007616 rows' scores, from the windows' arrays as the region finds them. -/
def column (c : Dev nD) : S1007616x1.Idx → EReal :=
  paddedScores (Gen.V m c main_v20) (Gen.V m c main_v21) (Gen.V m c main_v23) (Gen.V m c main_v25) (Gen.V m c main_arg4)
    (Gen.V m c main_v26) (Gen.V m c main_arg6)

/-- The column at row `p` is that row's score. -/
theorem column_at (c : Dev nD) (p : Fin 1007616) :
    column m c (ix2 p (0 : Fin 1))
      = rowScore (Gen.V m c main_v20) (Gen.V m c main_v21) (Gen.V m c main_v23) (Gen.V m c main_v25) (Gen.V m c main_arg4)
          (Gen.V m c main_v26) (Gen.V m c main_arg6) p := rfl

/-! ## What each point writes back -/

/-- Point `t` writes back block `t` of the column: row `r` of the stored value is the score of row `8192·t + r`. -/
theorem flushed_eq (c : Dev nD) (t : Fin cfg0.N) :
    (Gen.dats m 0 c).flushed 7 t = ((cfg0.win 7).blk t).view.read (Elt Ideal) (column m c) := by
  show (cfg0.win 7).cut (grid0.coords t) ((Gen.dats m 0 c).after 7 t) = _
  rw [Gen.after0_7]
  unfold Gen.out0_7
  rw [View.canon_unit_zero hz2]
  simp only [View.ld_unit_zero (S := S8192x128) hz2, View.ld_unit_zero (S := S128x128) hz2, View.ld_unit_zero (S := S128) hz1,
    View.ld_unit_zero (S := S128x1) hz2, View.ld_unit_zero (S := S1) hz1]
  funext y
  obtain ⟨-, -, -, -, -, -, -, -, -, -, -, -, h70, h71⟩ := Rows.idx_facts t
  have hr : (y 0).val < 8192 := Nat.lt_of_lt_of_le (y 0).isLt ((cfg0.win 7).xsize_le (grid0.coords t) 0)
  have hc : (y 1).val = 0 := by
    have : (y 1).val < 1 := Nat.lt_of_lt_of_le (y 1).isLt ((cfg0.win 7).xsize_le (grid0.coords t) 1)
    omega
  have hp : t.val * 8192 + (y 0).val < 1007616 := by
    have ht : t.val < 123 := Nat.lt_of_lt_of_eq t.isLt Gen.N_0
    omega
  -- the block's row, as an index of the stored column
  have hy : ((cfg0.win 7).xinj (grid0.coords t) y : S8192x1.Idx) = ix2 (⟨(y 0).val, hr⟩ : Fin 8192) (0 : Fin 1) :=
    funext fun a => Fin.ext (match a with | ⟨0, _⟩ => rfl | ⟨1, _⟩ => hc)
  -- the same row, as an index of the output array
  have he : (((cfg0.win 7).blk t).view.emb y : S1007616x1.Idx) = ix2 (⟨t.val * 8192 + (y 0).val, hp⟩ : Fin 1007616) (0 : Fin 1) :=
    funext fun a => Fin.ext (match a with
      | ⟨0, _⟩ => by show win0_7.index t 0 * 8192 + 1 * (y 0).val = t.val * 8192 + (y 0).val; rw [h70]; omega
      | ⟨1, _⟩ => by show win0_7.index t 1 * 1 + 1 * (y 1).val = 0; rw [h71, hc])
  refine Eq.trans (congrArg (Gen.k0_pay1 (F := Ideal) (Gen.iblk m c 0 t) (Gen.iblk m c 1 t) (Gen.iblk m c 2 t) (Gen.iblk m c 3 t)
    (Gen.iblk m c 4 t) (Gen.iblk m c 5 t) (Gen.iblk m c 6 t)) hy) ?_
  refine (Block.payload_at (Gen.iblk m c 0 t) (Gen.iblk m c 1 t) (Gen.iblk m c 2 t) (Gen.iblk m c 3 t) (Gen.iblk m c 4 t)
    (Gen.iblk m c 5 t) (Gen.iblk m c 6 t) ⟨(y 0).val, hr⟩).trans ?_
  rw [View.read_apply]
  refine Eq.trans ?_ (congrArg (column m c) he).symm
  rw [column_at]
  unfold rowScore
  exact scoreOfHalves_congr
    (fun k => Rows.users_block_at m c t ⟨(y 0).val, hr⟩ k ⟨t.val * 8192 + (y 0).val, hp⟩ rfl)
    (fun k => Rows.recipes_block_at m c t ⟨(y 0).val, hr⟩ k ⟨t.val * 8192 + (y 0).val, hp⟩ rfl)
    (fun k j => Rows.upper_block_at m c t k j) (fun k j => Rows.lower_block_at m c t k j)
    (fun j => Rows.bias_block_at m c t j) (fun j => Rows.out_block_at m c t j) (Rows.out_bias_block_at m c t)

/-! ## The blocks cover the column -/

/-- An index of the output array is in point `t`'s block iff each coordinate is in the block's range on its axis. -/
theorem mem_blk (t : Fin cfg0.N) (i : S1007616x1.Idx) :
    i ∈ ((cfg0.win 7).blk t).view.set
      ↔ ∀ a : Fin 2, win0_7.index t a * S8192x1.size a ≤ (i a).val ∧ (i a).val < win0_7.index t a * S8192x1.size a + S8192x1.size a := by
  show i ∈ ((View.whole main_v27).slice (win0_7.rect t)).set ↔ _
  rw [View.set_slice_whole, Rect.mem_set_unit]
  exact Iff.rfl

/-- Row `p` of the output array lies in the block of point `p / 8192`. -/
theorem cover (i : S1007616x1.Idx) : ∃ t : Fin cfg0.N, (cfg0.win 7).flush t = true ∧ i ∈ ((cfg0.win 7).blk t).view.set := by
  have hi0 : (i 0).val < 1007616 := (i 0).isLt
  have hi1 : (i 1).val < 1 := (i 1).isLt
  have hN : cfg0.N = 123 := Gen.N_0
  let t : Fin cfg0.N := ⟨(i 0).val / 8192, by rw [hN]; omega⟩
  obtain ⟨-, -, -, -, -, -, -, -, -, -, -, -, h70, h71⟩ := Rows.idx_facts t
  have ht : t.val = (i 0).val / 8192 := rfl
  refine ⟨t, Gen.flush0_7 t, ?_⟩
  rw [mem_blk]
  intro a
  match a with
  | ⟨0, _⟩ => show win0_7.index t 0 * 8192 ≤ (i 0).val ∧ (i 0).val < win0_7.index t 0 * 8192 + 8192; rw [h70, ht]; omega
  | ⟨1, _⟩ => show win0_7.index t 1 * 1 ≤ (i 1).val ∧ (i 1).val < win0_7.index t 1 * 1 + 1; rw [h71]; omega

/-- After the region the output array is the column of all rows' scores. -/
theorem final_column (c : Dev nD) : (Gen.dats m 0 c).arrAt 7 cfg0.N = column m c :=
  (Gen.dats m 0 c).arrAt_eq_of_cover 7 (column m c) (fun t _ => flushed_eq m c t) cover

/-! ## The host operations after the region -/

/-- The result buffer after the tail: the first million rows of the output array, the unit axis dropped. -/
theorem tail_eq (c : Dev nD) :
    (Pipeline.afterTail₀ cfgs (Gen.dats m) 0 (Gen.V0 m) [Gen.hostOps1] c main_v29 : S1000000.Idx → EReal)
      = shapeCast S1000000 (extractStridedSlice S1000000x1 ![0, 0] (column m c) slices_S1007616x1_S1000000x1_0_0)
          shapeCasts_S1000000x1_S1000000 := by
  have hw : Pipeline.withArrays (cfgs 0).spec c (Gen.V0 m c) (fun w => (Gen.dats m 0 c).arrAt w (cfgs 0).N) (Proc.devRef .tc main_v27)
      = column m c :=
    (Pipeline.withArrays_arr spec0 Gen.winFacts0.arr_inj c _ _ 7).trans (final_column m c)
  unfold Pipeline.afterTail₀
  show StableHlo.after Gen.hostOps1 _ (Proc.devRef .tc main_v29) = _
  after_results
  rw [hw]
  rfl

/-- The kernel's result at edge `e` is that edge's score, from the two tables read at the edges' end points. -/
theorem result_at (c : Dev nD) (e : Fin 1000000) :
    (Pipeline.afterTail₀ cfgs (Gen.dats m) 0 (Gen.V0 m) [Gen.hostOps1] c main_v29 : S1000000.Idx → EReal) (ix1 e)
      = edgeScore (Entry.usersRows (F := Ideal) (m ((c : Thread nD τ).loc main_arg0)) (m ((c : Thread nD τ).loc main_arg2)))
          (Entry.recipesRows (F := Ideal) (m ((c : Thread nD τ).loc main_arg1)) (m ((c : Thread nD τ).loc main_arg2)))
          (m ((c : Thread nD τ).loc main_arg3)) (m ((c : Thread nD τ).loc main_arg4)) (m ((c : Thread nD τ).loc main_arg5))
          (m ((c : Thread nD τ).loc main_arg6)) e := by
  rw [tail_eq]
  rw [shapeCast_apply _ shapeCasts_S1000000x1_S1000000 (ix1 e) (ix2 e (0 : Fin 1))
    (by rw [Shape.rowMajor_val_two, Shape.rowMajor_val_one]; show e.val * 1 + 0 = e.val; omega)]
  rw [extractStridedSlice_apply _ _ slices_S1007616x1_S1000000x1_0_0 (ix2 e (0 : Fin 1)) (ix2 (⟨e.val, by omega⟩ : Fin 1007616) (0 : Fin 1))
    (fun a => match a with
      | ⟨0, _⟩ => by show e.val = 0 + e.val; omega
      | ⟨1, _⟩ => by show 0 = 0 + 0; rfl)]
  rw [column_at]
  exact rowScore_eq_edgeScore _ _ _ _ _ _ _ _ _ _ _ _ _ e
    (fun k => Entry.users_window_at m c e k) (fun k => Entry.recipes_window_at m c e k)
    (fun k j => Entry.upper_weights_at m c k j) (fun k j => Entry.lower_weights_at m c k j)
    (fun j => congrFun (Gen.V_main_arg4 m c) (ix1 j)) (fun j => Entry.out_weights_at m c j)
    (congrFun (Gen.V_main_arg6 m c) (ix1 (0 : Fin 1)))

/-- The kernel's result array is the edge scores of the two tables read at the edges' end points. -/
theorem result_eq (c : Dev nD) :
    (Pipeline.afterTail₀ cfgs (Gen.dats m) 0 (Gen.V0 m) [Gen.hostOps1] c main_v29 : S1000000.Idx → EReal)
      = scores (Entry.usersRows (F := Ideal) (m ((c : Thread nD τ).loc main_arg0)) (m ((c : Thread nD τ).loc main_arg2)))
          (Entry.recipesRows (F := Ideal) (m ((c : Thread nD τ).loc main_arg1)) (m ((c : Thread nD τ).loc main_arg2)))
          (m ((c : Thread nD τ).loc main_arg3)) (m ((c : Thread nD τ).loc main_arg4)) (m ((c : Thread nD τ).loc main_arg5))
          (m ((c : Thread nD τ).loc main_arg6)) := by
  funext i
  obtain ⟨e, rfl⟩ : ∃ e : Fin 1000000, i = ix1 e := ⟨i 0, eq_ix1 i⟩
  exact result_at m c e

/-! ## The run -/

/-- Every weakly fair execution of the kernel's program terminates with the result array at the edge scores and the
    seven argument arrays unchanged. -/
theorem run : θ_run defs (onTc (τ := τ) (main (F := Ideal))) ⟨m, fun _ => 0, ρ⟩ fun r => ∀ c : Dev nD,
      r.2.mem ((c.tc : Thread nD τ).loc main_v29)
        = scores (Entry.usersRows (F := Ideal) (m ((c : Thread nD τ).loc main_arg0)) (m ((c : Thread nD τ).loc main_arg2)))
            (Entry.recipesRows (F := Ideal) (m ((c : Thread nD τ).loc main_arg1)) (m ((c : Thread nD τ).loc main_arg2)))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).1 4).trans ((((Gen.dats m) 0 c).arrAt_in 4 rfl _).trans ((Gen.A_eq m c 4).trans (Gen.V_main_arg4 m c))),
      ((h c).2 main_arg5 (Pipeline.mem_restRefs_of main_arg5 (by decide) (by decide))).trans (Gen.W_main_arg5 m (Gen.dats m) c),
      ((h c).1 6).trans ((((Gen.dats m) 0 c).arrAt_in 6 rfl _).trans ((Gen.A_eq m c 6).trans (Gen.V_main_arg6 m c)))⟩)
    (Gen.run_main m ρ)

end Cert.KernelIdeal.Score

end
-- ==== Proof.ReferenceScore.lean ====
/-
  The reference computes the edge scores.

  Read one operation at a time, the reference's result at edge `e` is
      (∑ j, max ((∑ k < 256, Z e k · W₁ k j) + b₁ j) 0 · W₂ j 0) + b₂ 0 ,
  where `Z` is the two gathered tables joined along their second axis: column `k < 128` of `Z` is column `k` of the
  users' rows `U`, column `128 + k` is column `k` of the recipes' rows `V`. Splitting the sum over the 256 columns
  into its halves (`EdgeScore.score_of_stacked`) gives `EdgeScore.scores U V W₁ b₁ W₂ b₂`. The gathers themselves
  are not opened: the kernel's program reads the same tables at the same end points, so `U` and `V` stay names.
-/
import proofs.«175898_j32323923870320_1_alg».proof.Proof.EdgeScore
import proofs.«175898_j32323923870320_1_alg».proof.Proof.Gen.ReferenceIdeal.Read

noncomputable section

namespace Cert.ReferenceIdeal.Score

open Cert.ReferenceIdeal Cert.ReferenceIdeal.Facts₀ Cert.ReferenceIdeal.Facts Cert.ReferenceIdeal.Read Idealize.ShloMosaic
  Idealize.ShloMosaic.ValueIdx Cert.EdgeScore

/-! ## The joined table, half by half -/

/-- A column in the first half of the joined table is the users' rows' column. -/
theorem joined_lo (U V : S1000000x128.Idx → EReal) (e : Fin 1000000) (k : Fin 128) :
    concatenate S1000000x256 1 [⟨S1000000x128, U⟩, ⟨S1000000x128, V⟩] concatenates_S1000000x128_S1000000x128_S1000000x256_d1
        (ix2 e (lo k)) = U (ix2 e k) :=
  concatenate_pair_apply_left 1 U V concatenates_S1000000x128_S1000000x128_S1000000x256_d1 (ix2 e (lo k)) rfl (ix2 e k)
    (fun b => match b with | ⟨0, _⟩ => rfl | ⟨1, _⟩ => rfl)

/-- A column in the second half of the joined table is the recipes' rows' column, 128 places earlier. -/
theorem joined_hi (U V : S1000000x128.Idx → EReal) (e : Fin 1000000) (k : Fin 128) :
    concatenate S1000000x256 1 [⟨S1000000x128, U⟩, ⟨S1000000x128, V⟩] concatenates_S1000000x128_S1000000x128_S1000000x256_d1
        (ix2 e (hi k)) = V (ix2 e k) :=
  concatenate_pair_apply_right 1 U V concatenates_S1000000x128_S1000000x128_S1000000x256_d1 (ix2 e (hi k)) rfl rfl (ix2 e k)
    (fun b => match b with | ⟨0, _⟩ => fun _ => rfl | ⟨1, _⟩ => fun h => absurd rfl h)
    (by show k.val + 128 = 128 + k.val; omega)

/-! ## Where each operation reads its operands, for edge `e`, hidden unit `j` and joined column `k` -/

theorem hidden_at (e : Fin 1000000) (j : Fin 128) : lidx_main_v24 (idx_main_v28 (ix1 e)) j = ix2 e j :=
  funext fun a => match a with | ⟨0, _⟩ => Fin.ext (Nat.div_one _) | ⟨1, _⟩ => rfl

theorem out_weight_at (e : Fin 1000000) (j : Fin 128) : ridx_main_v24 (idx_main_v28 (ix1 e)) j = ix2 j (0 : Fin 1) :=
  funext fun a => match a with | ⟨0, _⟩ => rfl | ⟨1, _⟩ => rfl

theorem out_bias_at (e : Fin 1000000) : idx_main_v25 (idx_main_v26 (idx_main_v28 (ix1 e))) = ix1 (0 : Fin 1) :=
  funext fun a => match a with | ⟨0, _⟩ => rfl

theorem joined_at (e : Fin 1000000) (j : Fin 128) (k : Fin 256) : lidx_main_v19 (ix2 e j) k = ix2 e k :=
  funext fun a => match a with | ⟨0, _⟩ => rfl | ⟨1, _⟩ => rfl

theorem weight_at (e : Fin 1000000) (j : Fin 128) (k : Fin 256) : ridx_main_v19 (ix2 e j) k = ix2 k j :=
  funext fun a => match a with | ⟨0, _⟩ => rfl | ⟨1, _⟩ => rfl

theorem bias_at (e : Fin 1000000) (j : Fin 128) : idx_main_v20 (idx_main_v21 (ix2 e j)) = ix1 j :=
  funext fun a => match a with | ⟨0, _⟩ => rfl

/-! ## The result -/

/-- The reference's result at edge `e` is that edge's score, from the two tables read at the edges' end points. -/
theorem result_at (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S256x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) (e : Fin 1000000) :
    val_main_v28 (F := Ideal) x0 x1 x2 x3 x4 x5 x6 (ix1 e)
      = edgeScore (val_main_v10 (F := Ideal) x0 x2) (val_main_v17 (F := Ideal) x1 x2) x3 x4 x5 x6 e := by
  -- one hidden unit of edge `e`: the rectified first layer, its 256-term sum over the joined row
  have hidden : ∀ j : Fin 128, val_main_v23 (F := Ideal) x0 x1 x2 x3 x4 (ix2 e j)
      = max ((∑ k : Fin 256, val_main_v18 (F := Ideal) x0 x1 x2 (ix2 e k) * x3 (ix2 k j)) + x4 (ix1 j)) zeroWord := by
    intro j
    rw [val_main_v23_apply, val_main_v22_apply, val_main_v19_apply, val_main_v21_apply, val_main_v20_apply,
      val_main_call0_v0_apply, val_main_call0_cst_apply, bias_at e j]
    refine congrArg (fun s => max (s + x4 (ix1 j)) zeroWord) (Finset.sum_congr rfl fun k _ => ?_)
    rw [joined_at, weight_at]
  rw [val_main_v28_apply, val_main_v27_apply, val_main_v24_apply, val_main_v26_apply, val_main_v25_apply, out_bias_at]
  refine Eq.trans (congrArg (fun s => s + x6 (ix1 (0 : Fin 1))) (Finset.sum_congr rfl fun j _ => ?_))
    ((score_of_stacked (fun k => val_main_v18 (F := Ideal) x0 x1 x2 (ix2 e k)) (fun k j => x3 (ix2 k j))
      (fun j => x4 (ix1 j)) (fun j => x5 (ix2 j (0 : Fin 1))) (x6 (ix1 (0 : Fin 1)))).trans ?_)
  · rw [hidden_at, out_weight_at, hidden]
  · exact congrArg₂
      (fun u v => score u v (fun k j => x3 (ix2 k j)) (fun j => x4 (ix1 j)) (fun j => x5 (ix2 j (0 : Fin 1))) (x6 (ix1 (0 : Fin 1))))
      (funext fun k => joined_lo (val_main_v10 (F := Ideal) x0 x2) (val_main_v17 (F := Ideal) x1 x2) e k)
      (funext fun k => joined_hi (val_main_v10 (F := Ideal) x0 x2) (val_main_v17 (F := Ideal) x1 x2) e k)

/-- The reference's result array is the edge scores of the two tables read at the edges' end points. -/
theorem result_eq (x0 : (⟨S100000x128, .f32⟩ : BufTy).Contents (Elt Ideal)) (x1 : (⟨S50000x128, .f32⟩ : BufTy).Contents (Elt Ideal))
    (x2 : (⟨S2x1000000, .i32⟩ : BufTy).Contents (Elt Ideal)) (x3 : (⟨S256x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) :
    val_main_v28 (F := Ideal) x0 x1 x2 x3 x4 x5 x6
      = scores (val_main_v10 (F := Ideal) x0 x2) (val_main_v17 (F := Ideal) x1 x2) x3 x4 x5 x6 := by
  funext i
  obtain ⟨e, rfl⟩ : ∃ e : Fin 1000000, i = ix1 e := ⟨i 0, eq_ix1 i⟩
  exact result_at x0 x1 x2 x3 x4 x5 x6 e

end Cert.ReferenceIdeal.Score

end
-- ==== Proof.lean ====
/-
  Scoring the edges of a bipartite graph with a two-layer perceptron: the kernel against its reference.

  Both programs read two embedding tables (users, recipes) at the end points of a million edges and score each
  edge from its two rows of 128 numbers: a dense layer from 256 to 128 numbers with a bias and a rectifier, then a
  dense layer from 128 numbers to one with a bias.

  The reference joins the two gathered rows into one of 256 numbers and multiplies by the whole first-layer
  matrix: its first layer is one sum over 256 terms. The kernel never joins them: it multiplies the user's row
  by the upper 128 rows of the matrix and the recipe's row by the lower 128 rows and adds the two products — two
  sums over 128 terms each. On the extended reals these agree because a finite sum is the sum of its two halves,
  a fact of commutative monoids that asks nothing of the summands; so the precondition (finite inputs) is never
  used, and the edge list may hold any integers: both programs read the tables through the same indices,
  whatever they are. The kernel's narrower float format is the identity on the extended reals, its blocking of
  the million edges into 123 blocks of 8192 rows (the last one padded) is undone by the cover of the blocks and
  by the slice that drops the padding.

  `EdgeScore` states the score and the law of the halves; `ReferenceScore` reads the reference's result as the
  scores; `BlockScore`, `RegionEntry`, `BlockRows`, `PaddedScores` and `KernelScore` read the kernel's. The three
  frames are the generated ones (the reference's is its generated run with the result dropped); the idealization
  rewrote nothing, so there is nothing to preserve.
-/
import proofs.«175898_j32323923870320_1_alg».proof.Defs
import proofs.«175898_j32323923870320_1_alg».proof.Proof.Gen.Kernel
import proofs.«175898_j32323923870320_1_alg».proof.Proof.Gen.Kernel.Skeleton
import proofs.«175898_j32323923870320_1_alg».proof.Proof.Gen.Kernel.Launch
import proofs.«175898_j32323923870320_1_alg».proof.Proof.Gen.Kernel.Points
import proofs.«175898_j32323923870320_1_alg».proof.Proof.Gen.Kernel.Frame
import proofs.«175898_j32323923870320_1_alg».proof.Proof.Gen.KernelIdeal
import proofs.«175898_j32323923870320_1_alg».proof.Proof.Gen.KernelIdeal.Skeleton
import proofs.«175898_j32323923870320_1_alg».proof.Proof.Gen.KernelIdeal.Launch
import proofs.«175898_j32323923870320_1_alg».proof.Proof.Gen.KernelIdeal.Points
import proofs.«175898_j32323923870320_1_alg».proof.Proof.Gen.KernelIdeal.Frame
import proofs.«175898_j32323923870320_1_alg».proof.Proof.Gen.ReferenceIdeal
import proofs.«175898_j32323923870320_1_alg».proof.Proof.Gen.ReferenceIdeal.Run
import proofs.«175898_j32323923870320_1_alg».proof.Proof.Gen.ReferenceIdeal.Read
import proofs.«175898_j32323923870320_1_alg».proof.Proof.Gen.Pre_finite_inputs
import proofs.«175898_j32323923870320_1_alg».proof.Proof.KernelScore
import proofs.«175898_j32323923870320_1_alg».proof.Proof.ReferenceScore
import Idealize.ShloMosaic.Adequacy
import Idealize.ShloMosaic.Init

noncomputable section

namespace Cert.Proof

open Idealize.ShloMosaic Idealize.SL.Sem Cert.EdgeScore

/-! ## Both programs read the tables at the same end points -/

/-- The users' ends of the edges are one integer computation in the two programs (no float is involved). -/
theorem user_ids_eq {F : FTy → Type} [FloatOps F]
    (x2 : (⟨Cert.KernelIdeal.S2x1000000, .i32⟩ : BufTy).Contents (Elt F)) :
    Cert.KernelIdeal.Entry.userIds (F := F) x2 = Cert.ReferenceIdeal.Read.val_main_v9 (F := F) x2 := rfl

/-- The recipes' ends likewise. -/
theorem recipe_ids_eq {F : FTy → Type} [FloatOps F]
    (x2 : (⟨Cert.KernelIdeal.S2x1000000, .i32⟩ : BufTy).Contents (Elt F)) :
    Cert.KernelIdeal.Entry.recipeIds (F := F) x2 = Cert.ReferenceIdeal.Read.val_main_v16 (F := F) x2 := rfl

/-- On the extended reals the kernel's gathered users' rows are the reference's: the same gather at the same
    indices, of the table rounded to the narrower format, which is the table. -/
theorem users_rows_eq (x0 : (⟨Cert.KernelIdeal.S100000x128, .f32⟩ : BufTy).Contents (Elt Ideal))
    (x2 : (⟨Cert.KernelIdeal.S2x1000000, .i32⟩ : BufTy).Contents (Elt Ideal)) :
    Cert.KernelIdeal.Entry.usersRows (F := Ideal) x0 x2 = Cert.ReferenceIdeal.Read.val_main_v10 (F := Ideal) x0 x2 := by
  unfold Cert.KernelIdeal.Entry.usersRows Cert.ReferenceIdeal.Read.val_main_v10
  rw [user_ids_eq]
  rfl

/-- And the gathered recipes' rows. -/
theorem recipes_rows_eq (x1 : (⟨Cert.KernelIdeal.S50000x128, .f32⟩ : BufTy).Contents (Elt Ideal))
    (x2 : (⟨Cert.KernelIdeal.S2x1000000, .i32⟩ : BufTy).Contents (Elt Ideal)) :
    Cert.KernelIdeal.Entry.recipesRows (F := Ideal) x1 x2 = Cert.ReferenceIdeal.Read.val_main_v17 (F := Ideal) x1 x2 := by
  unfold Cert.KernelIdeal.Entry.recipesRows Cert.ReferenceIdeal.Read.val_main_v17
  rw [recipe_ids_eq]
  rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the seven arguments, both programs end with the array of the edges' scores. -/
theorem algebraic : Cert.algebraic_KernelIdeal_ReferenceIdeal := by
  intro m ρ m' ρ' _ hagree
  refine ⟨fun c => scores
      (Cert.KernelIdeal.Entry.usersRows (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.KernelIdeal.Entry.recipesRows (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v28_eq (F := Ideal) _ _ _ _ _ _ _).trans ?_
  rw [Cert.ReferenceIdeal.Score.result_eq, h0, h1, h2, h3, h4, h5, h6]
  show scores _ _ _ _ _ _ = scores _ _ _ _ _ _
  rw [users_rows_eq, recipes_rows_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
